-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x768 : Shape := ⟨3, ![32, 512, 768]⟩
abbrev S_ : Shape := ⟨0, ![]⟩

class Facts : Prop where
  bcast_S_S32x512x768 : S_.BroadcastsInDim S32x512x768 (![] : Fin 0 → Fin S32x512x768.rank)
  reducesTo_S32x512x768_S_d0_1_2 : S32x512x768.ReducesTo [0, 1, 2] S_
  h_S_ : 0 < S_.numel

variable [Facts]

def fn {F : FTy → Type} [FloatOps F] (main_arg0 : FVec F S32x512x768 .f32) : IVec S_ 1 :=
  let main_v0 : FVec F S32x512x768 .f32 := Host.absf main_arg0
  let main_cst : FVec F S_ .f32 := constant S_ .f32 0x7F800000#32
  let main_v1 : FVec F S32x512x768 .f32 := broadcastInDim S32x512x768 ![] bcast_S_S32x512x768 main_cst
  let main_v2 : IVec S32x512x768 1 := cmpf .olt main_v0 main_v1
  let main_c : IVec S_ 1 := constantI S_ 1 1#1
  let main_v3 : IVec S_ 1 := (fun x v => Host.reduce IntOp.andi x v reducesTo_S32x512x768_S_d0_1_2 h_S_) main_v2 main_c
  main_v3
-- ==== Kernel.lean ====
abbrev S32x512x768 : Shape := ⟨3, ![32, 512, 768]⟩
abbrev S32x768x768 : Shape := ⟨3, ![32, 768, 768]⟩
abbrev S1x512x768 : Shape := ⟨3, ![1, 512, 768]⟩
abbrev S1x768x768 : Shape := ⟨3, ![1, 768, 768]⟩
abbrev S512x768 : Shape := ⟨2, ![512, 768]⟩
abbrev S512 : Shape := ⟨1, ![512]⟩
abbrev S512x1 : Shape := ⟨2, ![512, 1]⟩
abbrev S768x768 : Shape := ⟨2, ![768, 768]⟩

abbrev nBuf : Space → Nat
  | .hbm => 2
  | .vmem => 4
  | .smem => 0
  | _ => 0

abbrev bufTy : (tb : Table) → Fin (tcTables nBuf tb) → BufTy
  | .hbm, ⟨0, _⟩ => ⟨S32x512x768, .f32⟩
  | .hbm, ⟨1, _⟩ => ⟨S32x768x768, .f32⟩
  | .local _ .vmem, ⟨0, _⟩ => ⟨S1x512x768, .f32⟩
  | .local _ .vmem, ⟨1, _⟩ => ⟨S1x512x768, .f32⟩
  | .local _ .vmem, ⟨2, _⟩ => ⟨S1x768x768, .f32⟩
  | .local _ .vmem, ⟨3, _⟩ => ⟨S1x768x768, .f32⟩
  | _, _ => ⟨S32x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x768x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  reduces_S512x768_S512 : S512x768.Reduces [1] S512
  shapeCasts_S512_S512x1 : S512.ShapeCasts S512x1
  broadcasts_S512x1_S512x768 : S512x1.Broadcasts S512x768
  bitsLt_bf16_f32 : FTy.bits .bf16 < FTy.bits .f32
  inb_S1x768x768_S1x768x768_0_0_0 : ∀ a, (![0, 0, 0] : Fin 3 → Nat) a + S1x768x768.size a ≤ S1x768x768.size a
  h_S1x768x768 : 0 < S1x768x768.numel
  shapeCasts_S1x768x768_S768x768 : S1x768x768.ShapeCasts S768x768
  shapeCasts_S768x768_S1x768x768 : S768x768.ShapeCasts S1x768x768
  dot_S512x768_S512x768_S768x768_0_0_1_1_n_n_wf : DotDims.WF S512x768 S512x768 S768x768 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S32x512x768.size a
  hwx0_0 : ∀ i : grid0.Coords, EltTy.bits .f32 = 32 ∨ (Rect.block (s := S32x512x768) S1x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x768x768.size a ≤ S32x768x768.size a
  hwx0_1 : ∀ i : grid0.Coords, EltTy.bits .f32 = 32 ∨ (Rect.block (s := S32x768x768) S1x768x768.size (cc0_transform_1 i) (hinb0_1 i)).WholeWords (EltTy.packing .f32)

variable [Facts₀]

def dot_S512x768_S512x768_S768x768_0_0_1_1_n_n : DotDims S512x768 S512x768 S768x768 where
  lhsContracting := [0]
  rhsContracting := [0]
  lhsNonContracting := [1]
  rhsNonContracting := [1]
  lhsBatch := []
  rhsBatch := []
  wf := dot_S512x768_S512x768_S768x768_0_0_1_1_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x768x768.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x512x768 : Shape := ⟨3, ![32, 512, 768]⟩
abbrev S_ : Shape := ⟨0, ![]⟩
abbrev S32x512 : Shape := ⟨2, ![32, 512]⟩
abbrev S32x512x1 : Shape := ⟨3, ![32, 512, 1]⟩
abbrev S32x768x768 : Shape := ⟨3, ![32, 768, 768]⟩

abbrev nBuf : Space → Nat
  | .hbm => 12
  | .vmem => 0
  | .smem => 0
  | _ => 0

abbrev bufTy : (tb : Table) → Fin (tcTables nBuf tb) → BufTy
  | .hbm, ⟨0, _⟩ => ⟨S32x512x768, .f32⟩
  | .hbm, ⟨1, _⟩ => ⟨S32x512x768, .f32⟩
  | .hbm, ⟨2, _⟩ => ⟨S_, .f32⟩
  | .hbm, ⟨3, _⟩ => ⟨S32x512, .f32⟩
  | .hbm, ⟨4, _⟩ => ⟨S_, .f32⟩
  | .hbm, ⟨5, _⟩ => ⟨S32x512, .f32⟩
  | .hbm, ⟨6, _⟩ => ⟨S32x512, .f32⟩
  | .hbm, ⟨7, _⟩ => ⟨S32x512, .f32⟩
  | .hbm, ⟨8, _⟩ => ⟨S32x512x1, .f32⟩
  | .hbm, ⟨9, _⟩ => ⟨S32x512x768, .f32⟩
  | .hbm, ⟨10, _⟩ => ⟨S32x512x768, .f32⟩
  | .hbm, ⟨11, _⟩ => ⟨S32x768x768, .f32⟩
  | _, _ => ⟨S32x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  reducesTo_S32x512x768_S32x512_d2 : S32x512x768.ReducesTo [2] S32x512
  h_S_ : 0 < S_.numel
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512x1_S32x512x768_0_1_2 : S32x512x1.BroadcastsInDim S32x512x768 (![0, 1, 2] : Fin 3 → Fin S32x512x768.rank)
  dot_S32x512x768_S32x512x768_S32x768x768_1_1_2_2_0_0_wf : DotDims.WF S32x512x768 S32x512x768 S32x768x768 [1] [1] [2] [2] [0] [0]

variable [Facts₀]

def dot_S32x512x768_S32x512x768_S32x768x768_1_1_2_2_0_0 : DotDims S32x512x768 S32x512x768 S32x768x768 where
  lhsContracting := [1]
  rhsContracting := [1]
  lhsNonContracting := [2]
  rhsNonContracting := [2]
  lhsBatch := [0]
  rhsBatch := [0]
  wf := dot_S32x512x768_S32x512x768_S32x768x768_1_1_2_2_0_0_wf

class Facts : Prop extends Facts₀ where

variable [Facts]
-- ==== Proof.GramSpec.lean ====
/-
  The weighted Gram matrix of a batch of token slabs, as one function of the input array.

  For an input `x` of shape [32, 512, 768] (batch, token, feature), token `l` of batch `b` carries the weight
  `w b l = sqrt (ε + ∑ d, x (b, l, d)²)`, the square root of a small positive constant `ε` (kept as its single-precision
  word) plus the squared length of the token's feature row. The result at `(b, p, q)` is
  `∑ l, (x (b, l, p) · w b l) · x (b, l, q)`: the Gram matrix of the slab's columns, each token counted with its weight.
  Everything is read on the extended reals.
-/
import Idealize.ShloMosaic.PureOps.Ideal
import Idealize.ShloMosaic.Lib.ValueIdx

noncomputable section

namespace Cert.Gram

open Idealize.ShloMosaic Idealize.ShloMosaic.ValueIdx
open scoped BigOperators

/-- The squared length of token `l`'s feature row in batch `b`. -/
def sqLen (x : (⟨3, ![32, 512, 768]⟩ : Shape).Idx → EReal) (b : Fin 32) (l : Fin 512) : EReal :=
  ∑ d : Fin 768, x (ix3 b l d) * x (ix3 b l d)

/-- Token `l`'s weight in batch `b`: the square root of `ε` plus the squared length of its row. -/
def weight (x : (⟨3, ![32, 512, 768]⟩ : Shape).Idx → EReal) (b : Fin 32) (l : Fin 512) : EReal :=
  Ideal.sqrt (Ideal.ofBits .f32 0x3727C5AC#32 + sqLen x b l)

/-- The weighted Gram matrix at `(b, p, q)`: the sum over the tokens of the weighted entry of column `p` times the
    entry of column `q`. -/
def gramAt (x : (⟨3, ![32, 512, 768]⟩ : Shape).Idx → EReal) (b : Fin 32) (p q : Fin 768) : EReal :=
  ∑ l : Fin 512, (x (ix3 b l p) * weight x b l) * x (ix3 b l q)

/-- The whole result array. -/
def gram (x : (⟨3, ![32, 512, 768]⟩ : Shape).Idx → EReal) : (⟨3, ![32, 768, 768]⟩ : Shape).Idx → EReal :=
  fun i => gramAt x (i 0) (i 1) (i 2)

theorem gram_ix3 (x : (⟨3, ![32, 512, 768]⟩ : Shape).Idx → EReal) (b : Fin 32) (p q : Fin 768) :
    gram x (ix3 b p q) = gramAt x b p q := rfl

end Cert.Gram

end
-- ==== Proof.RefGram.lean ====
/-
  The reference computes the weighted Gram matrix.

  Read one operation at a time, the reference squares the input, sums each token's row (from the zero initial value),
  adds `ε` on the left, takes the square root, spreads the weight along the feature axis, multiplies the input by it,
  and contracts the token axis of the weighted input against the token axis of the input, batch by batch. At
  `(b, p, q)` this is `∑ l, (x (b, l, p) · w b l) · x (b, l, q)`, the specification's entry.
-/
import proofs.«117814_j89472758710312_1_alg».proof.Proof.Gen.ReferenceIdeal.Read
import proofs.«117814_j89472758710312_1_alg».proof.Proof.GramSpec

noncomputable section

namespace Cert.Gram.Ref

open Cert.ReferenceIdeal Cert.ReferenceIdeal.Gen Cert.ReferenceIdeal.Read
open Idealize.ShloMosaic Idealize.ShloMosaic.ValueIdx
open scoped BigOperators

/-- The left operand of the contraction at result index `(b, p, q)` and token `l` is read at `(b, l, p)`. -/
theorem lidx_ix3 (b : Fin 32) (p q : Fin 768) (l : Fin 512) : lidx_main_v8 (ix3 b p q) l = ix3 b l p :=
  funext fun a => Fin.ext (by match a with | ⟨0, _⟩ => rfl | ⟨1, _⟩ => rfl | ⟨2, _⟩ => rfl)

/-- The right operand is read at `(b, l, q)`. -/
theorem ridx_ix3 (b : Fin 32) (p q : Fin 768) (l : Fin 512) : ridx_main_v8 (ix3 b p q) l = ix3 b l q :=
  funext fun a => Fin.ext (by match a with | ⟨0, _⟩ => rfl | ⟨1, _⟩ => rfl | ⟨2, _⟩ => rfl)

/-- The row sum behind the weight spread to `(b, l, p)` runs over the entries `(b, l, d)`. -/
theorem sumidx_ix3 (b : Fin 32) (l : Fin 512) (p d : Fin 768) :
    idx_main_v1 (idx_main_v5 (idx_main_v6 (ix3 b l p))) d = ix3 b l d :=
  funext fun a => Fin.ext (by match a with | ⟨0, _⟩ => rfl | ⟨1, _⟩ => rfl | ⟨2, _⟩ => rfl)

/-- The weight the reference spreads to `(b, l, p)` is the specification's weight of token `l` in batch `b`. -/
theorem weight_eq (x : (⟨S32x512x768, .f32⟩ : BufTy).Contents (Elt Ideal)) (b : Fin 32) (l : Fin 512) (p : Fin 768) :
    val_main_v6 (F := Ideal) x (ix3 b l p) = weight x b l := by
  rw [val_main_v6_apply, val_main_v5_apply, val_main_v4_apply, val_main_v3_apply, val_main_v2_apply,
    val_main_cst_0_apply, val_main_v1_apply, val_main_cst_apply]
  simp only [val_main_v0_apply, sumidx_ix3, Ideal.hostUnary_sqrt_def, Ideal.addf_def, Ideal.mulf_def, Ideal.ofBits_def,
    Ideal.ofBits_zero_f32, zero_add]
  rfl

/-- The reference's result array is the weighted Gram matrix of its argument. -/
theorem ref_eq (x : (⟨S32x512x768, .f32⟩ : BufTy).Contents (Elt Ideal)) : val_main_v8 (F := Ideal) x = gram x := by
  funext i
  obtain ⟨b, p, q, rfl⟩ : ∃ (b : Fin 32) (p q : Fin 768), i = ix3 b p q := ⟨i 0, i 1, i 2, eq_ix3 i⟩
  rw [val_main_v8_apply, gram_ix3]
  unfold gramAt
  refine Finset.sum_congr rfl fun l _ => ?_
  rw [lidx_ix3, ridx_ix3, val_main_v7_apply, weight_eq]
  rfl

end Cert.Gram.Ref

end
-- ==== Proof.LibDotCols.lean ====
/-
  A matrix product that contracts the ROW axis of both operands, read at an index.

  For a `K × A` left operand and a `K × B` right operand whose dimension numbers contract the first axis of each
  (no batch axes), the contraction index has one coordinate `k : Fin K`, the left operand is read at `(k, p)` and
  the right one at `(k, q)`. So the product at `(p, q)` is `∑ k, f (k, p) · g (k, q)`: column `p` of the left
  operand paired with column `q` of the right one, whatever the sizes. `eq_cols` identifies any record with these
  dimension numbers with the one written out here, `cols`, for which the two operand indices compute.
-/
import Idealize.ShloMosaic.PureOps.Ideal
import Idealize.ShloMosaic.PureOps.Ideal.Laws
import Idealize.ShloMosaic.Lib.ValueIdx

noncomputable section

namespace Cert.LibDotCols

open Idealize.ShloMosaic Idealize.ShloMosaic.ValueIdx
open scoped BigOperators

variable {K A B : Nat}

/-- Dimension numbers `[0] × [0]`, free axes `[1]` and `[1]`, no batch: `K×A` by `K×B` gives `A×B`. -/
def cols (K A B : Nat) : DotDims ⟨2, ![K, A]⟩ ⟨2, ![K, B]⟩ ⟨2, ![A, B]⟩ where
  lhsContracting := [0]
  rhsContracting := [0]
  lhsNonContracting := [1]
  rhsNonContracting := [1]
  lhsBatch := []
  rhsBatch := []
  wf := ⟨rfl, by simp, rfl, by simp, by simp, by simp,
    by simpa [List.finRange] using List.Perm.swap (0 : Fin 2) 1 [],
    by simpa [List.finRange] using List.Perm.swap (0 : Fin 2) 1 [],
    rfl, Nat.two_pos, fun b => by
      match b with
      | ⟨0, _⟩ => rfl
      | ⟨1, _⟩ => rfl⟩

/-- Any record with these six lists is `cols`. -/
theorem eq_cols (d : DotDims ⟨2, ![K, A]⟩ ⟨2, ![K, B]⟩ ⟨2, ![A, B]⟩)
    (hlc : d.lhsContracting = [0]) (hrc : d.rhsContracting = [0]) (hln : d.lhsNonContracting = [1])
    (hrn : d.rhsNonContracting = [1]) (hlb : d.lhsBatch = []) (hrb : d.rhsBatch = []) : d = cols K A B := by
  cases d
  simp only at hlc hrc hln hrn hlb hrb
  subst hlc hrc hln hrn hlb hrb
  rfl

/-- The contraction shape has one axis … -/
theorem cols_rank : (cols K A B).contr.rank = 1 := rfl
/-- … of extent `K`. -/
theorem cols_size : (cols K A B).contr.size ⟨0, by rw [cols_rank]; exact Nat.one_pos⟩ = K := rfl

/-- At result index `(p, q)` and contraction coordinate `k` the left operand is read at `(k, p)`. -/
theorem cols_lhs (p : Fin A) (q : Fin B) (k : Fin K) :
    (cols K A B).lhsIdx (ix2 p q) ((contrEquiv1 (cols K A B) K cols_rank cols_size).symm k) = ix2 k p := by
  funext a
  apply Fin.ext
  match a with
  | ⟨0, _⟩ => rfl
  | ⟨1, _⟩ => rfl

/-- At result index `(p, q)` and contraction coordinate `k` the right operand is read at `(k, q)`. -/
theorem cols_rhs (p : Fin A) (q : Fin B) (k : Fin K) :
    (cols K A B).rhsIdx (ix2 p q) ((contrEquiv1 (cols K A B) K cols_rank cols_size).symm k) = ix2 k q := by
  funext a
  apply Fin.ext
  match a with
  | ⟨0, _⟩ => rfl
  | ⟨1, _⟩ => rfl

/-- The sum over the contraction index is the sum over `k : Fin K` of `f (k, p) · g (k, q)`. -/
theorem cols_sum (f : (⟨2, ![K, A]⟩ : Shape).Idx → EReal) (g : (⟨2, ![K, B]⟩ : Shape).Idx → EReal) (p : Fin A) (q : Fin B) :
    ∑ k : (cols K A B).contr.Idx, f ((cols K A B).lhsIdx (ix2 p q) k) * g ((cols K A B).rhsIdx (ix2 p q) k)
      = ∑ k : Fin K, f (ix2 k p) * g (ix2 k q) := by
  rw [← Equiv.sum_comp (contrEquiv1 (cols K A B) K cols_rank cols_size).symm]
  refine Finset.sum_congr rfl fun k _ => ?_
  rw [cols_lhs, cols_rhs]

/-- A block product into the zero accumulator, at `(p, q)`: `∑ k, lhs (k, p) · rhs (k, q)`. -/
theorem matmul_zero_apply (d : DotDims ⟨2, ![K, A]⟩ ⟨2, ![K, B]⟩ ⟨2, ![A, B]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (lhs : FVec Ideal ⟨2, ![K, A]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 k p) * rhs (ix2 k q) := by
  rw [eq_cols d hlc hrc hln hrn hlb hrb, Ideal.matmul_constant_zero_apply]
  exact cols_sum lhs rhs p q

/-- The same product added to an accumulator `acc`, at `(p, q)`: `acc (p, q) + ∑ k, lhs (k, p) · rhs (k, q)`. -/
theorem matmul_acc_apply (d : DotDims ⟨2, ![K, A]⟩ ⟨2, ![K, B]⟩ ⟨2, ![A, B]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (lhs : FVec Ideal ⟨2, ![K, A]⟩ .f32) (rhs : FVec Ideal ⟨2, ![K, B]⟩ .f32)
    (acc : FVec Ideal ⟨2, ![A, B]⟩ .f32) (p : Fin A) (q : Fin B) :
    FloatOps.matmul d prec lhs rhs acc (ix2 p q) = acc (ix2 p q) + ∑ k : Fin K, lhs (ix2 k p) * rhs (ix2 k q) := by
  rw [eq_cols d hlc hrc hln hrn hlb hrb, Ideal.matmul_apply, cols_sum lhs rhs p q]

/-- The host's product at `(p, q)`, whatever its schedule key: the same sum. -/
theorem dotGeneral_apply (d : DotDims ⟨2, ![K, A]⟩ ⟨2, ![K, B]⟩ ⟨2, ![A, B]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (sched : HostSchedule) (lhs : FVec Ideal ⟨2, ![K, A]⟩ .f32) (rhs : FVec Ideal ⟨2, ![K, B]⟩ .f32)
    (p : Fin A) (q : Fin B) :
    FloatOps.dotGeneral d prec sched lhs rhs (ix2 p q) = ∑ k : Fin K, lhs (ix2 k p) * rhs (ix2 k q) := by
  rw [eq_cols d hlc hrc hln hrn hlb hrb, Ideal.dotGeneral_apply]
  exact cols_sum lhs rhs p q

end Cert.LibDotCols

end
-- ==== Proof.LibDotColsFormats.lean ====
/-
  A matrix product that contracts the ROW axis of both operands, read at an index, for operands of any float formats.

  For a `K × A` left operand and a `K × B` right operand whose dimension numbers contract the first axis of each (no
  batch axes), the product into a zero accumulator at `(p, q)` is `∑ k, lhs (k, p) · rhs (k, q)`. At the ideal values
  every float format is the extended reals, so the statement holds whatever the two operands' formats are (a product of
  half-precision operands accumulated in single precision, for one). The record with these dimension numbers and the
  sum over its contraction index are those of the single-precision statement this file builds on.
-/
import proofs.«117814_j89472758710312_1_alg».proof.Proof.LibDotCols
import Idealize.ShloMosaic.PureOps.Ideal
import Idealize.ShloMosaic.PureOps.Ideal.Laws
import Idealize.ShloMosaic.Lib.ValueIdx

noncomputable section

namespace Cert.LibDotColsFormats

open Idealize.ShloMosaic Idealize.ShloMosaic.ValueIdx
open scoped BigOperators

variable {K A B : Nat}

/-- A product into the zero accumulator contracting the first axis of both operands, at `(p, q)`:
    `∑ k, lhs (k, p) · rhs (k, q)`, for operands of any float formats. -/
theorem matmul_zero_apply {φ₁ φ₂ : FTy} (d : DotDims ⟨2, ![K, A]⟩ ⟨2, ![K, B]⟩ ⟨2, ![A, B]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (lhs : FVec Ideal ⟨2, ![K, A]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 k p) * rhs (ix2 k q) := by
  rw [Cert.LibDotCols.eq_cols d hlc hrc hln hrn hlb hrb, Ideal.matmul_constant_zero_apply]
  exact Cert.LibDotCols.cols_sum lhs rhs p q

/-- The same product added to an accumulator `acc`, at `(p, q)`: `acc (p, q) + ∑ k, lhs (k, p) · rhs (k, q)`. -/
theorem matmul_acc_apply {φ₁ φ₂ : FTy} (d : DotDims ⟨2, ![K, A]⟩ ⟨2, ![K, B]⟩ ⟨2, ![A, B]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (lhs : FVec Ideal ⟨2, ![K, A]⟩ φ₁) (rhs : FVec Ideal ⟨2, ![K, B]⟩ φ₂)
    (acc : FVec Ideal ⟨2, ![A, B]⟩ .f32) (p : Fin A) (q : Fin B) :
    FloatOps.matmul d prec lhs rhs acc (ix2 p q) = acc (ix2 p q) + ∑ k : Fin K, lhs (ix2 k p) * rhs (ix2 k q) := by
  rw [Cert.LibDotCols.eq_cols d hlc hrc hln hrn hlb hrb, Ideal.matmul_apply, Cert.LibDotCols.cols_sum lhs rhs p q]

end Cert.LibDotColsFormats

end
-- ==== Proof.LibColumn.lean ====
/-
  A column of row values read at an index.

  A row reduction that keeps its reduced axis produces an `[a]` array given a trailing unit axis, `[a, 1]`, and then
  spread along that axis to `[a, b]`: entry `(i, 0)` of the cast is the array's entry `i`, and entry `(i, j)` of the
  spread column is the column's entry `(i, 0)`, whatever the sizes and the element type.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.KernelBlock.lean ====
/-
  What the kernel body computes from one slab.

  At a grid point the body reads one `[1, 512, 768]` slab `x` (one batch entry: tokens by features). It drops the unit
  axis, squares the entries and sums each token's row, adds `ε` on the left and takes the square root to get the
  token's weight, spreads the weight column over the features, multiplies the slab by it, and contracts the token axis
  of the weighted slab against the token axis of the slab (the changes of float format in between are the identity on
  the extended reals). So the `[1, 768, 768]` block it stores holds at `(0, p, q)`
  `∑ l, (x (0, l, p) · w l) · x (0, l, q)` with `w l = sqrt (ε + ∑ d, x (0, l, d)²)`.
-/
import proofs.«117814_j89472758710312_1_alg».proof.Proof.Gen.KernelIdeal.Skeleton
import proofs.«117814_j89472758710312_1_alg».proof.Proof.LibDotColsFormats
import proofs.«117814_j89472758710312_1_alg».proof.Proof.LibColumn
import Idealize.ShloMosaic.Lib.ValueLayout
import Idealize.ShloMosaic.PureOps.Ideal.Laws

noncomputable section

namespace Cert.Gram.Block

open Cert.KernelIdeal Cert.KernelIdeal.Gen
open Idealize.ShloMosaic Idealize.ShloMosaic.ValueIdx
open scoped BigOperators

/-- Token `l`'s weight inside one slab: the square root of `ε` plus the squared length of its feature row. -/
def slabWeight (x : (⟨3, ![1, 512, 768]⟩ : Shape).Idx → EReal) (l : Fin 512) : EReal :=
  Ideal.sqrt (Ideal.ofBits .f32 0x3727C5AC#32 + ∑ d : Fin 768, x (ix3 (0 : Fin 1) l d) * x (ix3 (0 : Fin 1) l d))

/-- The slab's weighted Gram matrix at `(p, q)`. -/
def slabGramAt (x : (⟨3, ![1, 512, 768]⟩ : Shape).Idx → EReal) (p q : Fin 768) : EReal :=
  ∑ l : Fin 512, (x (ix3 (0 : Fin 1) l p) * slabWeight x l) * x (ix3 (0 : Fin 1) l q)

/-- The sum along the feature axis of a `512 × 768` array, at token `l`. -/
theorem rowSum_apply (v : FVec Ideal S512x768 .f32) (h : S512x768.Reduces [1] S512) (hφ : FKind.Formats .f32)
    (hacc : (0x00000000#32 : BitVec 32) = FKind.add.neutral .f32 hφ) (l : Fin 512) :
    multiReduction .add [1] S512 v 0x00000000#32 h hφ hacc (ix1 l) = ∑ d : Fin 768, v (ix2 l d) := by
  refine (Ideal.multiReduction_add_single v 0x00000000#32 h hφ hacc (ix1 l)).trans ?_
  refine Finset.sum_congr rfl fun d _ => ?_
  exact congrArg v (funext fun a => Fin.ext (by match a with | ⟨0, _⟩ => rfl | ⟨1, _⟩ => rfl))

/-- The weight column at `(l, 0)`: the square root of `ε` plus the sum of the squares of row `l`. -/
theorem weightCol_apply (v : FVec Ideal S512x768 .f32) (h : S512x768.Reduces [1] S512) (hφ : FKind.Formats .f32)
    (hacc : (0x00000000#32 : BitVec 32) = FKind.add.neutral .f32 hφ) (hc : S512.ShapeCasts S512x1) (l : Fin 512) :
    sqrt (addf (broadcast S512x1 (Scalar.ofBits (F := Ideal) .f32 0x3727C5AC#32))
        (shapeCast S512x1 (multiReduction .add [1] S512 (mulf v v) 0x00000000#32 h hφ hacc) hc)) (ix2 l (0 : Fin 1))
      = Ideal.sqrt (Ideal.ofBits .f32 0x3727C5AC#32 + ∑ d : Fin 768, v (ix2 l d) * v (ix2 l d)) := by
  show Ideal.sqrt (Ideal.ofBits .f32 0x3727C5AC#32
      + shapeCast S512x1 (multiReduction .add [1] S512 (mulf v v) 0x00000000#32 h hφ hacc) hc (ix2 l (0 : Fin 1))) = _
  refine congrArg (fun z => Ideal.sqrt (Ideal.ofBits .f32 0x3727C5AC#32 + z)) ?_
  refine (Cert.LibColumn.shapeCast_a_a1_apply _ hc l 0).trans ?_
  exact rowSum_apply (mulf v v) h hφ hacc l

/-- One term of the contraction: the weighted entry of column `p` times the entry of column `q`, at token `l`. -/
theorem term_apply (v : FVec Ideal S512x768 .f32) (w : FVec Ideal S512x1 .f32) (hb : S512x1.Broadcasts S512x768)
    (ht : FTy.bits .bf16 < FTy.bits .f32) (l : Fin 512) (p q : Fin 768) :
    truncf .bf16 (mulf v (broadcastTo S512x768 w hb)) ht (ix2 l p) * truncf .bf16 v ht (ix2 l q)
      = (v (ix2 l p) * w (ix2 l (0 : Fin 1))) * v (ix2 l q) := by
  show (v (ix2 l p) * broadcastTo S512x768 w hb (ix2 l p)) * v (ix2 l q) = _
  rw [Cert.LibColumn.broadcastTo_a1_ab_apply]

/-- THE BLOCK the body stores, at `(u, p, q)`: the slab's weighted Gram matrix at `(p, q)`. -/
theorem pay_apply (x : Vec Ideal S1x512x768 .f32) (u : Fin 1) (p q : Fin 768) :
    k0_pay1 (F := Ideal) x (ix3 u p q) = slabGramAt x p q := by
  unfold k0_pay1
  refine (shapeCast_ab_1ab_apply _ _ u p q).trans ?_
  refine (Cert.LibDotColsFormats.matmul_zero_apply _ rfl rfl rfl rfl rfl rfl none _ _ p q).trans ?_
  refine Finset.sum_congr rfl fun l _ => ?_
  refine (term_apply _ _ _ _ l p q).trans ?_
  refine congrArg₂ (· * ·) (congrArg₂ (· * ·) (shapeCast_1ab_ab_apply x _ l p) ?_) (shapeCast_1ab_ab_apply x _ l q)
  refine (weightCol_apply _ _ _ _ _ l).trans ?_
  unfold slabWeight
  refine congrArg (fun z => Ideal.sqrt (Ideal.ofBits .f32 0x3727C5AC#32 + z)) (Finset.sum_congr rfl fun d _ => ?_)
  exact congrArg₂ (· * ·) (shapeCast_1ab_ab_apply x _ l d) (shapeCast_1ab_ab_apply x _ l d)

end Cert.Gram.Block

end
-- ==== Proof.KernelGram.lean ====
/-
  The kernel's result array is the weighted Gram matrix of its argument.

  The grid has one point per batch entry. Point `t` reads batch entry `t` of the input (the block index is `(t, 0, 0)`
  and the block is a whole `[1, 512, 768]` slab) and writes back batch entry `t` of the result (block index `(t, 0, 0)`,
  a whole `[1, 768, 768]` slab). What it writes is the slab's weighted Gram matrix, which is the specification's array
  read through that block, and the 32 blocks cover the result array: index `(b, p, q)` lies in point `b`'s block.
-/
import proofs.«117814_j89472758710312_1_alg».proof.Proof.Gen.KernelIdeal.Value
import proofs.«117814_j89472758710312_1_alg».proof.Proof.KernelBlock
import proofs.«117814_j89472758710312_1_alg».proof.Proof.GramSpec
import Idealize.ShloMosaic.Lib.Pipeline.Value

noncomputable section

namespace Cert.Gram.Kernel

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

theorem offsets_zero : (![0, 0, 0] : Fin 3 → Nat) = fun _ => 0 := funext fun a => by fin_cases a <;> rfl

/-- The index maps over the grid: at point `t` both windows' block index is `(t, 0, 0)`. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- A slab whose entries are batch entry `b` of `x` has, as its weighted Gram matrix, batch entry `b` of the
    weighted Gram matrix of `x`. -/
theorem block_eq (x : (⟨3, ![32, 512, 768]⟩ : Shape).Idx → EReal) (x0 : Vec Ideal S1x512x768 .f32) (b : Fin 32)
    (hx : ∀ (l : Fin 512) (d : Fin 768), x0 (ix3 (0 : Fin 1) l d) = x (ix3 b l d)) (u : Fin 1) (p q : Fin 768) :
    k0_pay1 (F := Ideal) x0 (ix3 u p q) = gram x (ix3 b p q) := by
  rw [Cert.Gram.Block.pay_apply, gram_ix3]
  unfold Cert.Gram.Block.slabGramAt gramAt Cert.Gram.Block.slabWeight weight sqLen
  simp only [hx]

/-- The input block at point `t` is batch entry `t` of the argument. -/
theorem iblk_apply (c : Dev nD) (t : Fin cfg0.N) (b : Fin 32) (hb : b.val = t.val) (l : Fin 512) (d : Fin 768) :
    (iblk m c 0 t : Vec Ideal S1x512x768 .f32) (ix3 (0 : Fin 1) l d)
      = (V m c main_arg0 : (⟨3, ![32, 512, 768]⟩ : Shape).Idx → EReal) (ix3 b l d) := by
  obtain ⟨e0, e1, e2, -, -, -⟩ := idx_facts t
  show V m c main_arg0 (((cfg0.win 0).blk t).view.emb (ix3 (0 : Fin 1) l d)) = _
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 512 + 1 * l.val = l.val; omega
  | ⟨2, _⟩ => show win0_0.index t (2 : Fin 3) * 768 + 1 * d.val = d.val; omega

/-- WHAT POINT `t` WRITES BACK is block `t` of the weighted Gram matrix of the argument. -/
theorem flushed_eq (c : Dev nD) (t : Fin cfg0.N) :
    (dats m 0 c).flushed 1 t = ((cfg0.win 1).blk t).view.read (Elt Ideal) (gram (V m c main_arg0)) := by
  rw [Value.flushed1]
  unfold out0_1
  rw [View.canon_unit_zero offsets_zero]
  simp only [View.ld_unit_zero (S := S1x512x768) offsets_zero]
  obtain ⟨-, -, -, e0, e1, e2⟩ := idx_facts t
  have ht : t.val < 32 := Nat.lt_of_lt_of_eq t.isLt N_0
  funext j
  show k0_pay1 (F := Ideal) (iblk m c 0 t) j = gram (V m c main_arg0) (((cfg0.win 1).blk t).view.emb j)
  have hemb : ((cfg0.win 1).blk t).view.emb j = ix3 (⟨t.val, ht⟩ : Fin 32) (j 1) (j 2) := by
    funext a; apply Fin.ext
    match a with
    | ⟨0, _⟩ => show win0_1.index t (0 : Fin 3) * 1 + 1 * (j 0).val = t.val; have hj : (j 0).val < 1 := (j 0).isLt; omega
    | ⟨1, _⟩ => show win0_1.index t (1 : Fin 3) * 768 + 1 * (j 1).val = (j 1).val; omega
    | ⟨2, _⟩ => show win0_1.index t (2 : Fin 3) * 768 + 1 * (j 2).val = (j 2).val; omega
  rw [hemb]
  refine (congrArg (k0_pay1 (F := Ideal) (iblk m c 0 t)) (eq_ix3 j)).trans ?_
  exact block_eq (V m c main_arg0) (iblk m c 0 t) ⟨t.val, ht⟩ (fun l d => iblk_apply m c t ⟨t.val, ht⟩ rfl l d) (j 0) (j 1) (j 2)

/-- An index of the result array is in point `t`'s block iff each coordinate is in the block's range on its axis. -/
theorem mem_blk (t : Fin cfg0.N) (i : S32x768x768.Idx) :
    i ∈ ((cfg0.win 1).blk t).view.set ↔ ∀ a : Fin 3, win0_1.index t a * S1x768x768.size a ≤ (i a).val
      ∧ (i a).val < win0_1.index t a * S1x768x768.size a + S1x768x768.size a := by
  show i ∈ ((View.whole main_v0).slice (win0_1.rect t)).set ↔ _
  rw [View.set_slice_whole, Rect.mem_set_unit]
  exact Iff.rfl

/-- Every index of the result array is in the block of the point its batch coordinate names. -/
theorem cover (i : S32x768x768.Idx) :
    ∃ t : Fin cfg0.N, (cfg0.win 1).flush t = true ∧ i ∈ ((cfg0.win 1).blk t).view.set := by
  have hi0 : (i 0).val < 32 := (i 0).isLt
  have hi1 : (i 1).val < 768 := (i 1).isLt
  have hi2 : (i 2).val < 768 := (i 2).isLt
  obtain ⟨t, ht⟩ : ∃ t : Fin cfg0.N, t.val = (i 0).val := ⟨⟨(i 0).val, Nat.lt_of_lt_of_eq hi0 N_0.symm⟩, rfl⟩
  obtain ⟨-, -, -, e0, e1, e2⟩ := idx_facts t
  refine ⟨t, flush0_1 t, ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 768 ≤ (i 1).val ∧ (i 1).val < win0_1.index t (1 : Fin 3) * 768 + 768; omega
  | ⟨2, _⟩ => show win0_1.index t (2 : Fin 3) * 768 ≤ (i 2).val ∧ (i 2).val < win0_1.index t (2 : Fin 3) * 768 + 768; omega

/-- THE RESULT ARRAY after the run is the weighted Gram matrix of the argument as launched. -/
theorem final (c : Dev nD) :
    (dats m 0 c).arrAt 1 cfg0.N = gram (m ((c : Thread nD τ).loc main_arg0)) :=
  (dats m 0 c).arrAt_eq_of_cover 1 (gram (V m c main_arg0)) (fun t _ => flushed_eq m c t) cover

/-- The kernel's run: the result array at the weighted Gram matrix of the argument, the argument unchanged. -/
theorem run : θ_run defs (onTc (τ := τ) (main (F := Ideal))) ⟨m, fun _ => 0, ρ⟩ fun r => ∀ c : Dev nD,
      r.2.mem ((c : Thread nD τ).loc main_v0) = gram (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.Gram.Kernel

end
-- ==== Proof.lean ====
/-
  The weighted Gram matrix kernel against its reference, over the extended reals.

  Input `x` of shape [32, 512, 768] (batch, token, feature). Token `l` of batch `b` has the weight
  `w b l = sqrt (ε + ∑ d, x (b, l, d)²)` (`ε` one single-precision constant, the same word in both programs), and both
  programs compute `out (b, p, q) = ∑ l, (x (b, l, p) · w b l) · x (b, l, q)`.

  The kernel runs one grid point per batch entry: it loads the entry's `512 × 768` slab, forms the weights by a row sum
  of squares, weights the slab, and contracts the token axis of the weighted slab with the token axis of the slab; the
  two operands pass through half precision on the way, which is the identity on the extended reals. The reference does
  the same with whole-array operations and one batched contraction. Both sides add `ε` on the left of the row sum,
  multiply the entry by the weight in that order, and put the weighted factor first in each product of the contraction,
  so the two sums agree term by term: no law of arithmetic is used, and the finiteness precondition is not opened.

  The pieces: `GramSpec` states the result as one function of the input; `RefGram` reads the reference's operations at
  an index and finds that function; `KernelBlock` reads what the kernel body stores from one slab; `KernelGram` carries
  the blocks to the whole result array (point `t` reads and writes batch entry `t`, and the 32 blocks cover the array).
  Here the three programs' runs and the claims are put together.
-/
import proofs.«117814_j89472758710312_1_alg».proof.Defs
import proofs.«117814_j89472758710312_1_alg».proof.Proof.Gen.Kernel
import proofs.«117814_j89472758710312_1_alg».proof.Proof.Gen.Kernel.Skeleton
import proofs.«117814_j89472758710312_1_alg».proof.Proof.Gen.Kernel.Launch
import proofs.«117814_j89472758710312_1_alg».proof.Proof.Gen.Kernel.Points
import proofs.«117814_j89472758710312_1_alg».proof.Proof.Gen.Kernel.Frame
import proofs.«117814_j89472758710312_1_alg».proof.Proof.Gen.KernelIdeal
import proofs.«117814_j89472758710312_1_alg».proof.Proof.Gen.KernelIdeal.Skeleton
import proofs.«117814_j89472758710312_1_alg».proof.Proof.Gen.KernelIdeal.Launch
import proofs.«117814_j89472758710312_1_alg».proof.Proof.Gen.KernelIdeal.Points
import proofs.«117814_j89472758710312_1_alg».proof.Proof.Gen.KernelIdeal.Frame
import proofs.«117814_j89472758710312_1_alg».proof.Proof.Gen.ReferenceIdeal
import proofs.«117814_j89472758710312_1_alg».proof.Proof.Gen.Pre_finite_inputs
import proofs.«117814_j89472758710312_1_alg».proof.Proof.Gen.KernelIdeal.Value
import proofs.«117814_j89472758710312_1_alg».proof.Proof.Gen.ReferenceIdeal.Run
import proofs.«117814_j89472758710312_1_alg».proof.Proof.Gen.ReferenceIdeal.Read
import proofs.«117814_j89472758710312_1_alg».proof.Proof.GramSpec
import proofs.«117814_j89472758710312_1_alg».proof.Proof.RefGram
import proofs.«117814_j89472758710312_1_alg».proof.Proof.KernelGram
import Idealize.ShloMosaic.Adequacy
import Idealize.ShloMosaic.Init

noncomputable section

namespace Cert.Proof

open Idealize.ShloMosaic Idealize.ShloMosaic.TcCoe Idealize.SL.Sem

/-- The word-level kernel runs, faults nowhere and leaves its argument as it was. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a line of whole-array operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- From memories that agree on the input, the kernel's result array and the reference's both end at the weighted Gram
    matrix of that input. -/
theorem algebraic : Cert.algebraic_KernelIdeal_ReferenceIdeal := by
  intro m ρ m' ρ' _ hagree
  refine ⟨fun c => Cert.Gram.gram (m ((c.tc : Thread Cert.KernelIdeal.nD Cert.KernelIdeal.τ).loc Cert.KernelIdeal.main_arg0)),
    Cert.Gram.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.Gram.Ref.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
